-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S16x2 : S_.BroadcastsInDim S16x2 (![] : Fin 0 → Fin S16x2.rank)
  reducesTo_S16x2_S_d0_1 : S16x2.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x1 .f32) (main_arg1 : IVec S2x6400000 32) (main_arg2 : FVec F S16x2 .f32) (main_arg3 : FVec F S16 .f32) (main_arg4 : FVec F S16x16 .f32) (main_arg5 : FVec F S16 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S16x2 .f32 := Host.absf main_arg2
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S100000x2 : Shape := ⟨2, ![100000, 2]⟩
abbrev S2x16 : Shape := ⟨2, ![2, 16]⟩
abbrev S1x16 : Shape := ⟨2, ![1, 16]⟩
abbrev S100000x16 : Shape := ⟨2, ![100000, 16]⟩
abbrev S10000x2 : Shape := ⟨2, ![10000, 2]⟩
abbrev S10000x16 : Shape := ⟨2, ![10000, 16]⟩

abbrev nBuf : Space → Nat
  | .hbm => 39
  | .vmem => 8
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S16x2, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000x1, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x1, .f32⟩
  | .hbm, ⟨28, _⟩ => ⟨S6400000x1, .f32⟩
  | .hbm, ⟨29, _⟩ => ⟨S_, .f32⟩
  | .hbm, ⟨30, _⟩ => ⟨S100000x1, .f32⟩
  | .hbm, ⟨31, _⟩ => ⟨S6400000x1, .i32⟩
  | .hbm, ⟨32, _⟩ => ⟨S100000x1, .f32⟩
  | .hbm, ⟨33, _⟩ => ⟨S100000x2, .f32⟩
  | .hbm, ⟨34, _⟩ => ⟨S2x16, .f32⟩
  | .hbm, ⟨35, _⟩ => ⟨S16x16, .f32⟩
  | .hbm, ⟨36, _⟩ => ⟨S1x16, .f32⟩
  | .hbm, ⟨37, _⟩ => ⟨S1x16, .f32⟩
  | .hbm, ⟨38, _⟩ => ⟨S100000x16, .f32⟩
  | .local _ .vmem, ⟨0, _⟩ => ⟨S10000x2, .f32⟩
  | .local _ .vmem, ⟨1, _⟩ => ⟨S10000x2, .f32⟩
  | .local _ .vmem, ⟨2, _⟩ => ⟨S2x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S10000x16, .f32⟩
  | .local _ .vmem, ⟨7, _⟩ => ⟨S10000x16, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x1 : S_.BroadcastsInDim S100000x1 (![] : Fin 0 → Fin S100000x1.rank)
  concatenates_S100000x1_S100000x1_S100000x2_d1 : Shape.Concatenates [S100000x1, S100000x1] S100000x2 1
  transposes_S16x2_S2x16_1_0 : S16x2.Transposes [1, 0] S2x16
  transposes_S16x16_S16x16_1_0 : S16x16.Transposes [1, 0] S16x16
  shapeCasts_S16_S1x16 : S16.ShapeCasts S1x16
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  shapeCasts_S2x16_S2x16 : S2x16.ShapeCasts S2x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S10000x2_S2x16_S10000x16_1_0_0_1_n_n_wf : DotDims.WF S10000x2 S2x16 S10000x16 [1] [0] [0] [1] [] []
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)

variable [Facts₀]

def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_v22) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S100000x2 : Shape := ⟨2, ![100000, 2]⟩
abbrev S2x16 : Shape := ⟨2, ![2, 16]⟩
abbrev S100000x16 : Shape := ⟨2, ![100000, 16]⟩
abbrev S1x16 : Shape := ⟨2, ![1, 16]⟩

abbrev nBuf : Space → Nat
  | .hbm => 50
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S16x2, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000x1, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x1, .f32⟩
  | .hbm, ⟨28, _⟩ => ⟨S6400000x1, .f32⟩
  | .hbm, ⟨29, _⟩ => ⟨S_, .f32⟩
  | .hbm, ⟨30, _⟩ => ⟨S100000x1, .f32⟩
  | .hbm, ⟨31, _⟩ => ⟨S6400000x1, .i32⟩
  | .hbm, ⟨32, _⟩ => ⟨S100000x1, .f32⟩
  | .hbm, ⟨33, _⟩ => ⟨S100000x2, .f32⟩
  | .hbm, ⟨34, _⟩ => ⟨S2x16, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S_, .f32⟩
  | .hbm, ⟨40, _⟩ => ⟨S100000x16, .f32⟩
  | .hbm, ⟨41, _⟩ => ⟨S100000x16, .f32⟩
  | .hbm, ⟨42, _⟩ => ⟨S16x16, .f32⟩
  | .hbm, ⟨43, _⟩ => ⟨S100000x16, .f32⟩
  | .hbm, ⟨44, _⟩ => ⟨S1x16, .f32⟩
  | .hbm, ⟨45, _⟩ => ⟨S100000x16, .f32⟩
  | .hbm, ⟨46, _⟩ => ⟨S100000x16, .f32⟩
  | .hbm, ⟨47, _⟩ => ⟨S_, .f32⟩
  | .hbm, ⟨48, _⟩ => ⟨S100000x16, .f32⟩
  | .hbm, ⟨49, _⟩ => ⟨S100000x16, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call1_cst : Ref sig .tc := ⟨.hbm, 47, rfl⟩
abbrev main_call1_v0 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x1 : S_.BroadcastsInDim S100000x1 (![] : Fin 0 → Fin S100000x1.rank)
  concatenates_S100000x1_S100000x1_S100000x2_d1 : Shape.Concatenates [S100000x1, S100000x1] S100000x2 1
  transposes_S16x2_S2x16_1_0 : S16x2.Transposes [1, 0] S2x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S16x16_S16x16_1_0 : S16x16.Transposes [1, 0] S16x16
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S100000x2_S2x16_S100000x16_1_0_0_1_n_n_wf : DotDims.WF S100000x2 S2x16 S100000x16 [1] [0] [0] [1] [] []
  dot_S100000x16_S16x16_S100000x16_1_0_0_1_n_n_wf : DotDims.WF S100000x16 S16x16 S100000x16 [1] [0] [0] [1] [] []

variable [Facts₀]

def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.Body.lean ====
/-
  The kernel body at an index, over the extended reals.

  One grid point loads a block of 10000 feature rows x : [10000, 2] and the four small operands whole — the first
  layer's weights already transposed u : [2, 16], its bias c : [1, 16], the second layer's weights already transposed
  v : [16, 16], its bias d : [1, 16] — and stores one [10000, 16] block. Every change of float format is the identity on
  the extended reals, a matrix product into the zero accumulator is the plain sum of products over the contracted
  axis, and a bias of shape [1, 16] broadcast over the rows reads its row 0. So the stored block at (p, q) is

      max (∑ k, max (∑ r, x (p, r) · u (r, k) + c (0, k)) 0 · v (k, q) + d (0, q)) 0.

  The two product lemmas come first (each operand index of a product named coordinate by coordinate, then the
  contraction index carried to `Fin 2` / `Fin 16`), then the bias broadcast, then the block.
-/
import proofs.«177696_j91182155694146_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The zero offsets of a whole-block access. -/
theorem hz : (![0, 0] : Fin 2 → Nat) = fun _ => 0 := funext fun a => by fin_cases a <;> rfl

/-! ## The first product: a block's rows against the [2, 16] weights -/

theorem lhs1_0 (i : S10000x16.Idx) (q : dot_S10000x2_S2x16_S10000x16_1_0_0_1_n_n.contr.Idx) :
    (dot_S10000x2_S2x16_S10000x16_1_0_0_1_n_n.lhsIdx i q 0).val = (i 0).val := by
  unfold DotDims.lhsIdx
  rw [dif_neg (show ¬(0 : Fin S10000x2.rank) ∈ dot_S10000x2_S2x16_S10000x16_1_0_0_1_n_n.lhsBatch by decide), dif_pos (show (0 : Fin S10000x2.rank) ∈ dot_S10000x2_S2x16_S10000x16_1_0_0_1_n_n.lhsNonContracting by decide)]
  rfl
theorem lhs1_1 (i : S10000x16.Idx) (q : dot_S10000x2_S2x16_S10000x16_1_0_0_1_n_n.contr.Idx) :
    (dot_S10000x2_S2x16_S10000x16_1_0_0_1_n_n.lhsIdx i q 1).val = (q ⟨0, by decide⟩).val :=
  dot_S10000x2_S2x16_S10000x16_1_0_0_1_n_n.lhsIdx_val_of_single rfl i q
theorem rhs1_0 (i : S10000x16.Idx) (q : dot_S10000x2_S2x16_S10000x16_1_0_0_1_n_n.contr.Idx) :
    (dot_S10000x2_S2x16_S10000x16_1_0_0_1_n_n.rhsIdx i q 0).val = (q ⟨0, by decide⟩).val :=
  dot_S10000x2_S2x16_S10000x16_1_0_0_1_n_n.rhsIdx_val_of_single rfl i q
theorem rhs1_1 (i : S10000x16.Idx) (q : dot_S10000x2_S2x16_S10000x16_1_0_0_1_n_n.contr.Idx) :
    (dot_S10000x2_S2x16_S10000x16_1_0_0_1_n_n.rhsIdx i q 1).val = (i 1).val := by
  unfold DotDims.rhsIdx
  rw [dif_neg (show ¬(1 : Fin S2x16.rank) ∈ dot_S10000x2_S2x16_S10000x16_1_0_0_1_n_n.rhsBatch by decide), dif_pos (show (1 : Fin S2x16.rank) ∈ dot_S10000x2_S2x16_S10000x16_1_0_0_1_n_n.rhsNonContracting by decide)]
  rfl

/-- Row p of the block times column q of the weights: the sum over the two features. -/
theorem product1_apply {φ₁ φ₂ : FTy} (l : FVec Ideal S10000x2 φ₁) (r : FVec Ideal S2x16 φ₂) (p : Fin 10000) (q : Fin 16) :
    matmul dot_S10000x2_S2x16_S10000x16_1_0_0_1_n_n none l r (constant S10000x16 .f32 0x00000000#32) (ix2 p q)
      = ∑ k : Fin 2, l (ix2 p k) * r (ix2 k q) := by
  simp only [matmul]
  rw [Ideal.matmul_constant_zero_apply, ← Equiv.sum_comp (contrEquiv1 dot_S10000x2_S2x16_S10000x16_1_0_0_1_n_n 2 rfl rfl).symm]
  refine Finset.sum_congr rfl fun k _ => ?_
  have hk := contrEquiv1_symm_val dot_S10000x2_S2x16_S10000x16_1_0_0_1_n_n 2 rfl rfl k
  have el : dot_S10000x2_S2x16_S10000x16_1_0_0_1_n_n.lhsIdx (ix2 p q) ((contrEquiv1 dot_S10000x2_S2x16_S10000x16_1_0_0_1_n_n 2 rfl rfl).symm k) = ix2 p k := funext fun a => Fin.ext (by
    match a with
    | ⟨0, _⟩ => exact lhs1_0 _ _
    | ⟨1, _⟩ => exact (lhs1_1 _ _).trans hk)
  have er : dot_S10000x2_S2x16_S10000x16_1_0_0_1_n_n.rhsIdx (ix2 p q) ((contrEquiv1 dot_S10000x2_S2x16_S10000x16_1_0_0_1_n_n 2 rfl rfl).symm k) = ix2 k q := funext fun a => Fin.ext (by
    match a with
    | ⟨0, _⟩ => exact (rhs1_0 _ _).trans hk
    | ⟨1, _⟩ => exact rhs1_1 _ _)
  rw [el, er]

/-! ## The second product: the hidden rows against the [16, 16] weights -/

theorem lhs2_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem lhs2_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem rhs2_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem rhs2_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- Row p of the hidden block times column q of the weights: the sum over the sixteen hidden units. -/
theorem product2_apply {φ₁ φ₂ : FTy} (l : FVec Ideal S10000x16 φ₁) (r : FVec Ideal S16x16 φ₂) (p : Fin 10000) (q : Fin 16) :
    matmul dot_S10000x16_S16x16_S10000x16_1_0_0_1_n_n none l r (constant S10000x16 .f32 0x00000000#32) (ix2 p q)
      = ∑ k : Fin 16, l (ix2 p k) * r (ix2 k q) := by
  simp only [matmul]
  rw [Ideal.matmul_constant_zero_apply, ← Equiv.sum_comp (contrEquiv1 dot_S10000x16_S16x16_S10000x16_1_0_0_1_n_n 16 rfl rfl).symm]
  refine Finset.sum_congr rfl fun k _ => ?_
  have hk := contrEquiv1_symm_val dot_S10000x16_S16x16_S10000x16_1_0_0_1_n_n 16 rfl rfl k
  have el : dot_S10000x16_S16x16_S10000x16_1_0_0_1_n_n.lhsIdx (ix2 p q) ((contrEquiv1 dot_S10000x16_S16x16_S10000x16_1_0_0_1_n_n 16 rfl rfl).symm k) = ix2 p k := funext fun a => Fin.ext (by
    match a with
    | ⟨0, _⟩ => exact lhs2_0 _ _
    | ⟨1, _⟩ => exact (lhs2_1 _ _).trans hk)
  have er : dot_S10000x16_S16x16_S10000x16_1_0_0_1_n_n.rhsIdx (ix2 p q) ((contrEquiv1 dot_S10000x16_S16x16_S10000x16_1_0_0_1_n_n 16 rfl rfl).symm k) = ix2 k q := funext fun a => Fin.ext (by
    match a with
    | ⟨0, _⟩ => exact (rhs2_0 _ _).trans hk
    | ⟨1, _⟩ => exact rhs2_1 _ _)
  rw [el, er]

/-! ## A [1, 16] bias broadcast over the rows -/

/-- Every row of the broadcast reads row 0 of the bias. -/
theorem bias_apply {α : Type} (b : S1x16.Idx → α) (p : Fin 10000) (q : Fin 16) :
    broadcastTo S10000x16 b broadcasts_S1x16_S10000x16 (ix2 p q) = b (ix2 (0 : Fin 1) q) :=
  broadcastTo_apply b broadcasts_S1x16_S10000x16 (ix2 p q) (ix2 (0 : Fin 1) q) (fun a => match a with
    | ⟨0, _⟩ => by show (0 : Nat) = if (1 : Nat) = 1 then 0 else _; rw [if_pos rfl]
    | ⟨1, _⟩ => by show q.val = if (16 : Nat) = 1 then 0 else q.val; rw [if_neg (by decide)])

/-! ## The stored block -/

/-- The block a grid point stores, at row p and column q, from the blocks it loaded. -/
theorem block_apply (x : Vec Ideal S10000x2 .f32) (u : Vec Ideal S2x16 .f32) (c : Vec Ideal S1x16 .f32)
    (v : Vec Ideal S16x16 .f32) (d : Vec Ideal S1x16 .f32) (p : Fin 10000) (q : Fin 16) :
    out0_5 (F := Ideal) x u c v d (ix2 p q)
      = max ((∑ k : Fin 16, max ((∑ r : Fin 2, x (ix2 p r) * u (ix2 r k)) + c (ix2 (0 : Fin 1) k)) 0 * v (ix2 k q))
          + d (ix2 (0 : Fin 1) q)) 0 := by
  unfold out0_5
  rw [View.canon_unit_zero hz]
  simp only [View.ld_unit_zero (S := S10000x2) hz, View.ld_unit_zero (S := S2x16) hz, View.ld_unit_zero (S := S16x16) hz,
    View.ld_unit_zero (S := S1x16) hz]
  unfold k0_pay1
  simp only [shapeCast_self]
  rw [maximumf_apply, addf_apply, product2_apply, bias_apply, broadcast_apply]
  refine congrArg₂ max (congrArg₂ (· + ·) (Finset.sum_congr rfl fun k _ => ?_) rfl) Ideal.ofBits_zero_f32
  rw [truncf_apply, truncf_apply, maximumf_apply, addf_apply, product1_apply, bias_apply, broadcast_apply]
  refine congrArg₂ (· * ·) (congrArg₂ max (congrArg₂ (· + ·) (Finset.sum_congr rfl fun r _ => ?_) rfl) Ideal.ofBits_zero_f32) rfl
  rw [truncf_apply, truncf_apply]

end Cert.KernelIdeal.Body

end
-- ==== Proof.Spec.lean ====
/-
  The specification: a two-layer perceptron applied to every node's feature row, over the extended reals.

  From a feature matrix f : [100000, 2], first-layer weights u : [2, 16] (input feature by hidden unit) with bias
  c : [1, 16], and second-layer weights v : [16, 16] (hidden unit by output) with bias d : [1, 16],

      hidden row k   = max (∑ r, f (row, r) · u (r, k) + c (0, k)) 0
      token  row col = max (∑ k, hidden row k · v (k, col) + d (0, col)) 0

  and `tokens` is the [100000, 16] array of them. Both programs compute this function of the same five arrays; only
  how the rows are grouped into blocks differs, and no row's value depends on another row's.
-/
import Idealize.ShloMosaic.PureOps.Ideal
import Idealize.ShloMosaic.Lib.ValueIdx

noncomputable section

namespace Cert.Spec

open Idealize.ShloMosaic Idealize.ShloMosaic.ValueIdx

/-- Hidden unit `k` of node `row`: the rectified affine image of the node's two features. -/
def hidden (f : FVec Ideal ⟨2, ![100000, 2]⟩ .f32) (u : FVec Ideal ⟨2, ![2, 16]⟩ .f32) (c : FVec Ideal ⟨2, ![1, 16]⟩ .f32)
    (row : Fin 100000) (k : Fin 16) : EReal :=
  max ((∑ r : Fin 2, f (ix2 row r) * u (ix2 r k)) + c (ix2 (0 : Fin 1) k)) 0

/-- Output `col` of node `row`: the rectified affine image of the node's sixteen hidden units. -/
def token (f : FVec Ideal ⟨2, ![100000, 2]⟩ .f32) (u : FVec Ideal ⟨2, ![2, 16]⟩ .f32) (c : FVec Ideal ⟨2, ![1, 16]⟩ .f32)
    (v : FVec Ideal ⟨2, ![16, 16]⟩ .f32) (d : FVec Ideal ⟨2, ![1, 16]⟩ .f32) (row : Fin 100000) (col : Fin 16) : EReal :=
  max ((∑ k : Fin 16, hidden f u c row k * v (ix2 k col)) + d (ix2 (0 : Fin 1) col)) 0

/-- The whole result array. -/
def tokens (f : FVec Ideal ⟨2, ![100000, 2]⟩ .f32) (u : FVec Ideal ⟨2, ![2, 16]⟩ .f32) (c : FVec Ideal ⟨2, ![1, 16]⟩ .f32)
    (v : FVec Ideal ⟨2, ![16, 16]⟩ .f32) (d : FVec Ideal ⟨2, ![1, 16]⟩ .f32) : FVec Ideal ⟨2, ![100000, 16]⟩ .f32 :=
  fun i => token f u c v d (i 0) (i 1)

theorem tokens_apply (f : FVec Ideal ⟨2, ![100000, 2]⟩ .f32) (u : FVec Ideal ⟨2, ![2, 16]⟩ .f32) (c : FVec Ideal ⟨2, ![1, 16]⟩ .f32)
    (v : FVec Ideal ⟨2, ![16, 16]⟩ .f32) (d : FVec Ideal ⟨2, ![1, 16]⟩ .f32) (row : Fin 100000) (col : Fin 16) :
    tokens f u c v d (ix2 row col) = token f u c v d row col := rfl

end Cert.Spec

end
-- ==== Proof.Blocks.lean ====
/-
  From the blocks to the array: the kernel's result is the specification of the five arrays its windows stage.

  The grid has ten points. Point t stages rows 10000 t … 10000 t + 9999 of the feature matrix and the four small
  operands whole, and writes rows 10000 t … 10000 t + 9999 of the result. A row of the stored block depends only on
  the same row of the loaded feature block (the body at an index), so what point t writes back is block t of
  `Spec.tokens` of the five arrays; the ten blocks tile the hundred thousand rows (row n lies in block n / 10000),
  hence the result array is `Spec.tokens` of them everywhere.
-/
import proofs.«177696_j91182155694146_1_alg».proof.Proof.Gen.KernelIdeal.Value
import proofs.«177696_j91182155694146_1_alg».proof.Proof.Body
import proofs.«177696_j91182155694146_1_alg».proof.Proof.Spec

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The five staged arrays and the blocks a point loads, at their literal types -/

abbrev featArr (c : Dev nD) : FVec Ideal S100000x2 .f32 := V m c main_v22
abbrev w1Arr (c : Dev nD) : FVec Ideal S2x16 .f32 := V m c main_v23
abbrev b1Arr (c : Dev nD) : FVec Ideal S1x16 .f32 := V m c main_v25
abbrev w2Arr (c : Dev nD) : FVec Ideal S16x16 .f32 := V m c main_v24
abbrev b2Arr (c : Dev nD) : FVec Ideal S1x16 .f32 := V m c main_v26

abbrev featBlk (c : Dev nD) (t : Fin cfg0.N) : Vec Ideal S10000x2 .f32 := iblk m c 0 t
abbrev w1Blk (c : Dev nD) (t : Fin cfg0.N) : Vec Ideal S2x16 .f32 := iblk m c 1 t
abbrev b1Blk (c : Dev nD) (t : Fin cfg0.N) : Vec Ideal S1x16 .f32 := iblk m c 2 t
abbrev w2Blk (c : Dev nD) (t : Fin cfg0.N) : Vec Ideal S16x16 .f32 := iblk m c 3 t
abbrev b2Blk (c : Dev nD) (t : Fin cfg0.N) : Vec Ideal S1x16 .f32 := iblk m c 4 t

/-- The result the kernel is shown to leave: the specification of the staged arrays. -/
abbrev result (c : Dev nD) : FVec Ideal S100000x16 .f32 :=
  Spec.tokens (featArr m c) (w1Arr m c) (b1Arr m c) (w2Arr m c) (b2Arr m c)

/-! ## The index maps over the grid -/

/-- The feature window and the result window move one block of rows per point; the small operands stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-! ## The loaded blocks read off the arrays -/

/-- Row p of point t's feature block is row 10000 t + p of the feature matrix. -/
theorem featBlk_apply (c : Dev nD) (t : Fin cfg0.N) (p : Fin 10000) (r : Fin 2) (row : Fin 100000)
    (hrow : row.val = t.val * 10000 + p.val) : featBlk m c t (ix2 p r) = featArr m c (ix2 row r) := by
  obtain ⟨e0, e1, -⟩ := idx_facts t
  show V m c main_v22 (((cfg0.win 0).blk t).view.emb (ix2 p r)) = V m c main_v22 (ix2 row r)
  refine congrArg _ (funext fun a => Fin.ext ?_)
  match a with
  | ⟨0, _⟩ => show win0_0.index t (0 : Fin 2) * 10000 + 1 * p.val = row.val; omega
  | ⟨1, _⟩ => show win0_0.index t (1 : Fin 2) * 2 + 1 * r.val = r.val; omega

/-- The four small operands are staged whole at every point. -/
theorem w1Blk_eq (c : Dev nD) (t : Fin cfg0.N) : w1Blk m c t = w1Arr m c := by
  obtain ⟨-, -, e0, e1, -⟩ := idx_facts t
  funext y
  show V m c main_v23 (((cfg0.win 1).blk t).view.emb y) = V m c main_v23 y
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 16 + 1 * (y 1).val = (y 1).val; omega
theorem b1Blk_eq (c : Dev nD) (t : Fin cfg0.N) : b1Blk m c t = b1Arr m c := by
  obtain ⟨-, -, -, -, e0, e1, -⟩ := idx_facts t
  funext y
  show V m c main_v25 (((cfg0.win 2).blk t).view.emb y) = V m c main_v25 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega
theorem w2Blk_eq (c : Dev nD) (t : Fin cfg0.N) : w2Blk m c t = w2Arr m c := by
  obtain ⟨-, -, -, -, -, -, e0, e1, -⟩ := idx_facts t
  funext y
  show V m c main_v24 (((cfg0.win 3).blk t).view.emb y) = V m c main_v24 y
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 16 + 1 * (y 1).val = (y 1).val; omega
theorem b2Blk_eq (c : Dev nD) (t : Fin cfg0.N) : b2Blk m c t = b2Arr m c := by
  obtain ⟨-, -, -, -, -, -, -, -, e0, e1, -⟩ := idx_facts t
  funext y
  show V m c main_v26 (((cfg0.win 4).blk t).view.emb y) = V m c main_v26 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-! ## What a point writes back -/

/-- The block point t stores, at (p, q), is the specification's token of row 10000 t + p. -/
theorem stored_apply (c : Dev nD) (t : Fin cfg0.N) (p : Fin 10000) (q : Fin 16) (row : Fin 100000)
    (hrow : row.val = t.val * 10000 + p.val) :
    out0_5 (F := Ideal) (featBlk m c t) (w1Blk m c t) (b1Blk m c t) (w2Blk m c t) (b2Blk m c t) (ix2 p q)
      = Spec.token (featArr m c) (w1Arr m c) (b1Arr m c) (w2Arr m c) (b2Arr m c) row q := by
  refine (Body.block_apply (featBlk m c t) (w1Blk m c t) (b1Blk m c t) (w2Blk m c t) (b2Blk m c t) p q).trans ?_
  rw [w1Blk_eq m c t, b1Blk_eq m c t, w2Blk_eq m c t, b2Blk_eq m c t]
  unfold Spec.token Spec.hidden
  refine congrArg₂ max (congrArg₂ (· + ·) (Finset.sum_congr rfl fun k _ => ?_) rfl) rfl
  refine congrArg₂ (· * ·) (congrArg₂ max (congrArg₂ (· + ·) (Finset.sum_congr rfl fun r _ => ?_) rfl) rfl) rfl
  rw [featBlk_apply m c t p r row hrow]

/-- WHAT POINT t WRITES BACK is block t of the result. -/
theorem flushed_eq (c : Dev nD) (t : Fin cfg0.N) :
    (dats m 0 c).flushed 5 t = ((cfg0.win 5).blk t).view.read (Elt Ideal) (result m c) := by
  rw [flushed5]
  obtain ⟨-, -, -, -, -, -, -, -, -, -, e0, e1⟩ := idx_facts t
  have ht := point_lt t
  funext j
  show out0_5 (F := Ideal) (featBlk m c t) (w1Blk m c t) (b1Blk m c t) (w2Blk m c t) (b2Blk m c t) j
    = result m c (((cfg0.win 5).blk t).view.emb j)
  obtain ⟨p, q, rfl⟩ : ∃ (p : Fin 10000) (q : Fin 16), j = ix2 p q := ⟨j 0, j 1, eq_ix2 j⟩
  have hemb : ((cfg0.win 5).blk t).view.emb (ix2 p q) = ix2 (⟨t.val * 10000 + p.val, by omega⟩ : Fin 100000) q := by
    funext a; apply Fin.ext
    match a with
    | ⟨0, _⟩ => show win0_5.index t (0 : Fin 2) * 10000 + 1 * p.val = t.val * 10000 + p.val; omega
    | ⟨1, _⟩ => show win0_5.index t (1 : Fin 2) * 16 + 1 * q.val = q.val; omega
  rw [hemb]
  exact stored_apply m c t p q _ rfl

/-! ## The blocks tile the array -/

/-- An index of the array is in point t's block iff each coordinate is in the block's range on its axis. -/
theorem mem_blk (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v27).slice (win0_5.rect t)).set ↔ _
  rw [View.set_slice_whole, Rect.mem_set_unit]
  exact Iff.rfl

/-- Row n lies in the block of point n / 10000. -/
theorem cover (i : S100000x16.Idx) : ∃ t : Fin cfg0.N, (cfg0.win 5).flush t = true ∧ i ∈ ((cfg0.win 5).blk t).view.set := by
  have hi0 : (i 0).val < 100000 := idx2_lt0 i
  have hi1 : (i 1).val < 16 := idx2_lt1 i
  let t : Fin cfg0.N := ⟨(i 0).val / 10000, lt_of_lt_of_eq (by omega) N_0.symm⟩
  obtain ⟨-, -, -, -, -, -, -, -, -, -, e0, e1⟩ := idx_facts t
  have htv : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 16 ≤ (i 1).val ∧ (i 1).val < win0_5.index t (1 : Fin 2) * 16 + 16; omega

/-! ## The array after the run, and the run -/

/-- The result array ends holding the specification of the five staged arrays. -/
theorem final (c : Dev nD) : (dats m 0 c).arrAt 5 cfg0.N = result m c :=
  (dats m 0 c).arrAt_eq_of_cover 5 (result m c) (fun t _ => flushed_eq m c t) cover

/-- The kernel's run with the result array named. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.RefTokens.lean ====
/-
  The reference computes the specification.

  Read from its result back to the five arrays the perceptron is applied to — the feature matrix (stage 22), the
  transposed first-layer weights (stage 23), the first bias as a [1, 16] row (stage 25), the transposed second-layer
  weights (stage 29), the second bias as a [1, 16] row (stage 31) — the reference's result at (row, col) is
  `Spec.token` of them: each matrix product is the sum of products over the contracted axis, each bias row is
  broadcast over the nodes, each rectification is the maximum with zero. The index functions the generated
  read-at-an-index lemmas name are the coordinate pairs below.
-/
import proofs.«177696_j91182155694146_1_alg».proof.Proof.Gen.ReferenceIdeal.Read
import proofs.«177696_j91182155694146_1_alg».proof.Proof.Spec

noncomputable section

namespace Cert.ReferenceIdeal.Tokens

open Cert.ReferenceIdeal Cert.ReferenceIdeal.Read Idealize.ShloMosaic Idealize.ShloMosaic.ValueIdx

/-! ## The index functions as coordinate pairs -/

theorem lidx30 (i : S100000x16.Idx) (k : Fin 16) : lidx_main_v30 i k = ix2 (i 0) k :=
  funext fun a => by match a with | ⟨0, _⟩ => rfl | ⟨1, _⟩ => rfl
theorem ridx30 (i : S100000x16.Idx) (k : Fin 16) : ridx_main_v30 i k = ix2 k (i 1) :=
  funext fun a => by match a with | ⟨0, _⟩ => rfl | ⟨1, _⟩ => rfl
theorem idx32 (i : S100000x16.Idx) : idx_main_v32 i = ix2 (0 : Fin 1) (i 1) :=
  funext fun a => by match a with | ⟨0, _⟩ => rfl | ⟨1, _⟩ => rfl
theorem lidx24 (i : S100000x16.Idx) (r : Fin 2) : lidx_main_v24 i r = ix2 (i 0) r :=
  funext fun a => by match a with | ⟨0, _⟩ => rfl | ⟨1, _⟩ => rfl
theorem ridx24 (i : S100000x16.Idx) (r : Fin 2) : ridx_main_v24 i r = ix2 r (i 1) :=
  funext fun a => by match a with | ⟨0, _⟩ => rfl | ⟨1, _⟩ => rfl
theorem idx26 (i : S100000x16.Idx) : idx_main_v26 i = ix2 (0 : Fin 1) (i 1) :=
  funext fun a => by match a with | ⟨0, _⟩ => rfl | ⟨1, _⟩ => rfl

/-! ## The hidden layer, then the result -/

/-- The rectified first layer (stage 28) at (row, k) is the specification's hidden unit. -/
theorem hidden_eq (x0 : (⟨S100000x1, .f32⟩ : BufTy).Contents (Elt Ideal)) (x1 : (⟨S2x6400000, .i32⟩ : BufTy).Contents (Elt Ideal))
    (x2 : (⟨S16x2, .f32⟩ : BufTy).Contents (Elt Ideal)) (x3 : (⟨S16, .f32⟩ : BufTy).Contents (Elt Ideal)) (row : Fin 100000) (k : Fin 16) :
    val_main_v28 (F := Ideal) x0 x1 x2 x3 (ix2 row k)
      = Spec.hidden (val_main_v22 (F := Ideal) x0 x1) (val_main_v23 (F := Ideal) x2) (val_main_v25 (F := Ideal) x3) row k := by
  rw [val_main_v28_apply, val_main_v27_apply, val_main_v24_apply, val_main_v26_apply, val_main_call0_v0_apply,
    val_main_call0_cst_apply, idx26]
  unfold Spec.hidden
  refine congrArg₂ max (congrArg₂ (· + ·) (Finset.sum_congr rfl fun r _ => ?_) rfl) Ideal.ofBits_zero_f32
  rw [lidx24, ridx24]
  rfl

/-- The reference's result array is the specification of its five intermediate arrays. -/
theorem result_eq (x0 : (⟨S100000x1, .f32⟩ : BufTy).Contents (Elt Ideal)) (x1 : (⟨S2x6400000, .i32⟩ : BufTy).Contents (Elt Ideal))
    (x2 : (⟨S16x2, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal)) :
    val_main_v34 (F := Ideal) x0 x1 x2 x3 x4 x5
      = Spec.tokens (val_main_v22 (F := Ideal) x0 x1) (val_main_v23 (F := Ideal) x2) (val_main_v25 (F := Ideal) x3)
          (val_main_v29 (F := Ideal) x4) (val_main_v31 (F := Ideal) x5) := by
  funext i
  rw [val_main_v34_apply, val_main_v33_apply, val_main_v30_apply, val_main_v32_apply, val_main_call1_v0_apply,
    val_main_call1_cst_apply, idx32]
  unfold Spec.tokens Spec.token
  refine congrArg₂ max (congrArg₂ (· + ·) (Finset.sum_congr rfl fun k _ => ?_) rfl) Ideal.ofBits_zero_f32
  rw [lidx30, ridx30]
  exact congrArg (· * val_main_v29 (F := Ideal) x4 (ix2 k (i 1))) (hidden_eq x0 x1 x2 x3 (i 0) k)

end Cert.ReferenceIdeal.Tokens

end
-- ==== Proof.HostSide.lean ====
/-
  The five arrays the kernel's windows stage are the reference's own intermediate arrays.

  Before its one kernel call the kernel program runs the same host operations as the reference: both gather the
  node values at the two ends of every edge, multiply them, add the products into the node at the edge's first end,
  and join the result to the node values as a second feature column; both transpose the two weight matrices. So the
  staged feature matrix and the two staged weight matrices are, term for term, the reference's stages 22, 23 and 29 of
  the same arguments. The biases differ only in spelling: the kernel program reshapes a bias [16] to a row [1, 16], the
  reference broadcasts it along a new leading axis of extent one; either way entry (0, q) of the row is entry q of
  the bias.
-/
import proofs.«177696_j91182155694146_1_alg».proof.Proof.Gen.KernelIdeal.Frame
import proofs.«177696_j91182155694146_1_alg».proof.Proof.Gen.ReferenceIdeal.Read
import Idealize.ShloMosaic.Lib.StableHlo.Run
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- A bias reshaped to a row is the bias broadcast to a row: entry (0, q) of either is entry q of the bias. -/
theorem row_of_bias (x : (⟨S16, .f32⟩ : BufTy).Contents (Elt Ideal)) :
    shapeCast S1x16 x shapeCasts_S16_S1x16 = Cert.ReferenceIdeal.Read.val_main_v25 (F := Ideal) x := by
  funext j
  rw [Cert.ReferenceIdeal.Read.val_main_v25_apply]
  exact shapeCast_apply x shapeCasts_S16_S1x16 j (Cert.ReferenceIdeal.Read.idx_main_v25 j) (by
    rewrite [Shape.rowMajor_val_one, Shape.rowMajor_val_two]
    have h0 : (j 0).val < 1 := (j 0).isLt
    show (j 1).val = (j 0).val * 16 + (j 1).val
    omega)

set_option maxRecDepth 8192 in
set_option maxHeartbeats 2000000 in
/-- The staged feature matrix: node values joined to the summed edge products. -/
theorem feats_eq (c : Dev nD) :
    (V m c main_v22 : S100000x2.Idx → EReal)
      = Cert.ReferenceIdeal.Read.val_main_v22 (F := Ideal) (m ((c : Thread nD τ).loc main_arg0)) (m ((c : Thread nD τ).loc main_arg1)) := by
  dsimp only [Gen.V, Gen.hostOps0]; after_results; rfl

/-- The staged first-layer weights: the argument transposed. -/
theorem w1_eq (c : Dev nD) :
    (V m c main_v23 : S2x16.Idx → EReal) = Cert.ReferenceIdeal.Read.val_main_v23 (F := Ideal) (m ((c : Thread nD τ).loc main_arg2)) := by
  dsimp only [Gen.V, Gen.hostOps0]; after_results; rfl

/-- The staged second-layer weights: the argument transposed. -/
theorem w2_eq (c : Dev nD) :
    (V m c main_v24 : S16x16.Idx → EReal) = Cert.ReferenceIdeal.Read.val_main_v29 (F := Ideal) (m ((c : Thread nD τ).loc main_arg4)) := by
  dsimp only [Gen.V, Gen.hostOps0]; after_results; rfl

/-- The staged first bias, as the reference's row. -/
theorem b1_eq (c : Dev nD) :
    (V m c main_v25 : S1x16.Idx → EReal) = Cert.ReferenceIdeal.Read.val_main_v25 (F := Ideal) (m ((c : Thread nD τ).loc main_arg3)) := by
  have e : (V m c main_v25 : S1x16.Idx → EReal) = shapeCast S1x16 (m ((c : Thread nD τ).loc main_arg3)) shapeCasts_S16_S1x16 := by
    dsimp only [Gen.V, Gen.hostOps0]; after_results; rfl
  rw [e, row_of_bias]

/-- The staged second bias, as the reference's row. -/
theorem b2_eq (c : Dev nD) :
    (V m c main_v26 : S1x16.Idx → EReal) = Cert.ReferenceIdeal.Read.val_main_v31 (F := Ideal) (m ((c : Thread nD τ).loc main_arg5)) := by
  have e : (V m c main_v26 : S1x16.Idx → EReal) = shapeCast S1x16 (m ((c : Thread nD τ).loc main_arg5)) shapeCasts_S16_S1x16 := by
    dsimp only [Gen.V, Gen.hostOps0]; after_results; rfl
  rw [e, row_of_bias]
  rfl

end Cert.KernelIdeal.HostSide

end
-- ==== Proof.lean ====
/-
  A two-layer perceptron over every node's pair (its value, the sum over its outgoing edges of the products of the
  edge's two end values), tiled over the nodes, against the same perceptron applied to the whole node set at once.

  Both programs build the [100000, 2] feature matrix by the same host operations and transpose the same two weight
  matrices. The kernel then walks ten blocks of 10000 rows; at each it multiplies the block by the first weights
  into a zero accumulator, adds the bias row, takes the maximum with zero, multiplies by the second weights, adds the
  second bias row and takes the maximum with zero again. The reference does the same to all 100000 rows in one go.
  Over the extended reals a change of float format is the identity and a matrix product is the sum of products over
  the contracted axis, so row by row the two are one expression (`Spec.token`): no algebraic law beyond reading the
  sums at an index is used, and the precondition is never opened.

  `Blocks.run` is the kernel's run with its result named `Spec.tokens` of the five staged arrays; `Tokens.result_eq` says
  the reference's result is `Spec.tokens` of its own five intermediate arrays; `HostSide` identifies the two families.
  The kernel needed no rewriting to be read over the extended reals, so nothing is owed for the idealization.
-/
import proofs.«177696_j91182155694146_1_alg».proof.Defs
import proofs.«177696_j91182155694146_1_alg».proof.Proof.Gen.Kernel
import proofs.«177696_j91182155694146_1_alg».proof.Proof.Gen.Kernel.Skeleton
import proofs.«177696_j91182155694146_1_alg».proof.Proof.Gen.Kernel.Launch
import proofs.«177696_j91182155694146_1_alg».proof.Proof.Gen.Kernel.Points
import proofs.«177696_j91182155694146_1_alg».proof.Proof.Gen.Kernel.Frame
import proofs.«177696_j91182155694146_1_alg».proof.Proof.Gen.KernelIdeal
import proofs.«177696_j91182155694146_1_alg».proof.Proof.Gen.KernelIdeal.Skeleton
import proofs.«177696_j91182155694146_1_alg».proof.Proof.Gen.KernelIdeal.Launch
import proofs.«177696_j91182155694146_1_alg».proof.Proof.Gen.KernelIdeal.Points
import proofs.«177696_j91182155694146_1_alg».proof.Proof.Gen.KernelIdeal.Frame
import proofs.«177696_j91182155694146_1_alg».proof.Proof.Gen.ReferenceIdeal
import proofs.«177696_j91182155694146_1_alg».proof.Proof.Gen.Pre_finite_inputs
import proofs.«177696_j91182155694146_1_alg».proof.Proof.Gen.KernelIdeal.Value
import proofs.«177696_j91182155694146_1_alg».proof.Proof.Gen.ReferenceIdeal.Run
import proofs.«177696_j91182155694146_1_alg».proof.Proof.Gen.ReferenceIdeal.Read
import proofs.«177696_j91182155694146_1_alg».proof.Proof.Blocks
import proofs.«177696_j91182155694146_1_alg».proof.Proof.RefTokens
import proofs.«177696_j91182155694146_1_alg».proof.Proof.HostSide
import Idealize.ShloMosaic.Adequacy
import Idealize.ShloMosaic.Init

noncomputable section

namespace Cert.Proof

open Idealize.ShloMosaic Idealize.ShloMosaic.TcCoe Idealize.SL.Sem

/-- The kernel's result, named over its staged arrays, is the specification of the reference's stages of the same
    arguments. -/
theorem result_eq_ref (m : (ℓ : Loc Cert.KernelIdeal.nD Cert.KernelIdeal.τ Cert.KernelIdeal.sig) → Buf (Elt Ideal) ℓ)
    (c : Dev Cert.KernelIdeal.nD) :
    Cert.KernelIdeal.Blocks.result m c
      = Cert.Spec.tokens
          (Cert.ReferenceIdeal.Read.val_main_v22 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.Read.val_main_v23 (F := Ideal) (m ((c : Thread Cert.KernelIdeal.nD Cert.KernelIdeal.τ).loc Cert.KernelIdeal.main_arg2)))
          (Cert.ReferenceIdeal.Read.val_main_v25 (F := Ideal) (m ((c : Thread Cert.KernelIdeal.nD Cert.KernelIdeal.τ).loc Cert.KernelIdeal.main_arg3)))
          (Cert.ReferenceIdeal.Read.val_main_v29 (F := Ideal) (m ((c : Thread Cert.KernelIdeal.nD Cert.KernelIdeal.τ).loc Cert.KernelIdeal.main_arg4)))
          (Cert.ReferenceIdeal.Read.val_main_v31 (F := Ideal) (m ((c : Thread Cert.KernelIdeal.nD Cert.KernelIdeal.τ).loc Cert.KernelIdeal.main_arg5))) := by
  show Cert.Spec.tokens (Cert.KernelIdeal.Gen.V m c Cert.KernelIdeal.main_v22) (Cert.KernelIdeal.Gen.V m c Cert.KernelIdeal.main_v23)
    (Cert.KernelIdeal.Gen.V m c Cert.KernelIdeal.main_v25) (Cert.KernelIdeal.Gen.V m c Cert.KernelIdeal.main_v24)
    (Cert.KernelIdeal.Gen.V m c Cert.KernelIdeal.main_v26) = _
  rw [Cert.KernelIdeal.HostSide.feats_eq m c, Cert.KernelIdeal.HostSide.w1_eq m c, Cert.KernelIdeal.HostSide.b1_eq m c,
    Cert.KernelIdeal.HostSide.w2_eq m c, Cert.KernelIdeal.HostSide.b2_eq m c]

theorem frame_kernel : Cert.frame_Kernel := fun m ρ _ => Cert.Kernel.Gen.frame m ρ

theorem frame_kernel_ideal : Cert.frame_KernelIdeal := fun m ρ _ => Cert.KernelIdeal.Gen.frame m ρ

/-- The reference has no kernel call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments both programs end with `Spec.tokens` of the same five arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v34_eq, Cert.ReferenceIdeal.Tokens.result_eq, a0, a1, a2, a3, a4, a5]
  exact (result_eq_ref m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
